-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S50000x64 : Shape := ⟨2, ![50000, 64]⟩
abbrev S1600000 : Shape := ⟨1, ![1600000]⟩
abbrev S1600000x32 : Shape := ⟨2, ![1600000, 32]⟩
abbrev S100x64 : Shape := ⟨2, ![100, 64]⟩
abbrev S32x64 : Shape := ⟨2, ![32, 64]⟩
abbrev S64 : Shape := ⟨1, ![64]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1600000x32 : S_.BroadcastsInDim S1600000x32 (![] : Fin 0 → Fin S1600000x32.rank)
  reducesTo_S1600000x32_S_d0_1 : S1600000x32.ReducesTo [0, 1] S_
  bcast_S_S100x64 : S_.BroadcastsInDim S100x64 (![] : Fin 0 → Fin S100x64.rank)
  reducesTo_S100x64_S_d0_1 : S100x64.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg10 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg7 : FVec F S32x64 .f32) (main_arg8 : FVec F S64 .f32) (main_arg9 : FVec F S128x64 .f32) (main_arg10 : FVec F S64 .f32) (main_v13 : IVec S_ 1) (main_v16 : IVec S100x64 1) : IVec S_ 1 :=
  let main_c_5 : IVec S_ 1 := constantI S_ 1 1#1
  let main_v17 : IVec S_ 1 := (fun x v => Host.reduce IntOp.andi x v reducesTo_S100x64_S_d0_1 h_S_) main_v16 main_c_5
  let main_v18 : IVec S_ 1 := andi main_v13 main_v17
  let main_v19 : FVec F S32x64 .f32 := Host.absf main_arg7
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg9
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg10 main_v33

def fn {F : FTy → Type} [FloatOps F] (main_arg0 : IVec S50000 32) (main_arg1 : FVec F S50000x64 .f32) (main_arg2 : IVec S1600000 32) (main_arg3 : IVec S1600000 32) (main_arg4 : FVec F S1600000 .f32) (main_arg5 : FVec F S1600000x32 .f32) (main_arg6 : FVec F S100x64 .f32) (main_arg7 : FVec F S32x64 .f32) (main_arg8 : FVec F S64 .f32) (main_arg9 : FVec F S128x64 .f32) (main_arg10 : FVec F S64 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000 .f32 := Host.absf main_arg4
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000x32 .f32 := Host.absf main_arg5
  let main_cst_2 : FVec F S_ .f32 := constant S_ .f32 0x7F800000#32
  let main_v10 : FVec F S1600000x32 .f32 := broadcastInDim S1600000x32 ![] bcast_S_S1600000x32 main_cst_2
  let main_v11 : IVec S1600000x32 1 := cmpf .olt main_v9 main_v10
  let main_c_3 : IVec S_ 1 := constantI S_ 1 1#1
  let main_v12 : IVec S_ 1 := (fun x v => Host.reduce IntOp.andi x v reducesTo_S1600000x32_S_d0_1 h_S_) main_v11 main_c_3
  let main_v13 : IVec S_ 1 := andi main_v8 main_v12
  let main_v14 : FVec F S100x64 .f32 := Host.absf main_arg6
  let main_cst_4 : FVec F S_ .f32 := constant S_ .f32 0x7F800000#32
  let main_v15 : FVec F S100x64 .f32 := broadcastInDim S100x64 ![] bcast_S_S100x64 main_cst_4
  let main_v16 : IVec S100x64 1 := cmpf .olt main_v14 main_v15
  fn_part1 (F := F) main_arg7 main_arg8 main_arg9 main_arg10 main_v13 main_v16
-- ==== Kernel.lean ====
abbrev S50000 : Shape := ⟨1, ![50000]⟩
abbrev S50000x64 : Shape := ⟨2, ![50000, 64]⟩
abbrev S1600000 : Shape := ⟨1, ![1600000]⟩
abbrev S1600000x32 : Shape := ⟨2, ![1600000, 32]⟩
abbrev S100x64 : Shape := ⟨2, ![100, 64]⟩
abbrev S32x64 : Shape := ⟨2, ![32, 64]⟩
abbrev S64 : Shape := ⟨1, ![64]⟩
abbrev S128x64 : Shape := ⟨2, ![128, 64]⟩
abbrev S_ : Shape := ⟨0, ![]⟩
abbrev S50000x1 : Shape := ⟨2, ![50000, 1]⟩
abbrev S1600000x1 : Shape := ⟨2, ![1600000, 1]⟩
abbrev S1600000x64 : Shape := ⟨2, ![1600000, 64]⟩
abbrev S1x64 : Shape := ⟨2, ![1, 64]⟩
abbrev S16000x32 : Shape := ⟨2, ![16000, 32]⟩
abbrev S16000x1 : Shape := ⟨2, ![16000, 1]⟩
abbrev S16000x64 : Shape := ⟨2, ![16000, 64]⟩
abbrev S10000x64 : Shape := ⟨2, ![10000, 64]⟩
abbrev S64x64 : Shape := ⟨2, ![64, 64]⟩

abbrev nBuf : Space → Nat
  | .hbm => 55
  | .vmem => 18
  | .smem => 0
  | _ => 0

abbrev bufTy : (tb : Table) → Fin (tcTables nBuf tb) → BufTy
  | .hbm, ⟨0, _⟩ => ⟨S50000, .i32⟩
  | .hbm, ⟨1, _⟩ => ⟨S50000x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S1600000x32, .f32⟩
  | .hbm, ⟨6, _⟩ => ⟨S100x64, .f32⟩
  | .hbm, ⟨7, _⟩ => ⟨S32x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .f32⟩
  | .hbm, ⟨30, _⟩ => ⟨S1600000, .f32⟩
  | .hbm, ⟨31, _⟩ => ⟨S1600000, .f32⟩
  | .hbm, ⟨32, _⟩ => ⟨S1600000, .f32⟩
  | .hbm, ⟨33, _⟩ => ⟨S_, .f32⟩
  | .hbm, ⟨34, _⟩ => ⟨S1600000, .f32⟩
  | .hbm, ⟨35, _⟩ => ⟨S1600000, .f32⟩
  | .hbm, ⟨36, _⟩ => ⟨S_, .f32⟩
  | .hbm, ⟨37, _⟩ => ⟨S1600000, .f32⟩
  | .hbm, ⟨38, _⟩ => ⟨S1600000, .f32⟩
  | .hbm, ⟨39, _⟩ => ⟨S_, .f32⟩
  | .hbm, ⟨40, _⟩ => ⟨S1600000, .f32⟩
  | .hbm, ⟨41, _⟩ => ⟨S1600000, .i1⟩
  | .hbm, ⟨42, _⟩ => ⟨S_, .f32⟩
  | .hbm, ⟨43, _⟩ => ⟨S_, .f32⟩
  | .hbm, ⟨44, _⟩ => ⟨S1600000, .f32⟩
  | .hbm, ⟨45, _⟩ => ⟨S1600000, .f32⟩
  | .hbm, ⟨46, _⟩ => ⟨S1600000x1, .f32⟩
  | .hbm, ⟨47, _⟩ => ⟨S1x64, .f32⟩
  | .hbm, ⟨48, _⟩ => ⟨S1600000x64, .f32⟩
  | .hbm, ⟨49, _⟩ => ⟨S_, .f32⟩
  | .hbm, ⟨50, _⟩ => ⟨S50000x64, .f32⟩
  | .hbm, ⟨51, _⟩ => ⟨S1600000x1, .i32⟩
  | .hbm, ⟨52, _⟩ => ⟨S50000x64, .f32⟩
  | .hbm, ⟨53, _⟩ => ⟨S1x64, .f32⟩
  | .hbm, ⟨54, _⟩ => ⟨S50000x64, .f32⟩
  | .local _ .vmem, ⟨0, _⟩ => ⟨S16000x32, .f32⟩
  | .local _ .vmem, ⟨1, _⟩ => ⟨S16000x32, .f32⟩
  | .local _ .vmem, ⟨2, _⟩ => ⟨S16000x1, .f32⟩
  | .local _ .vmem, ⟨3, _⟩ => ⟨S16000x1, .f32⟩
  | .local _ .vmem, ⟨4, _⟩ => ⟨S16000x64, .f32⟩
  | .local _ .vmem, ⟨5, _⟩ => ⟨S16000x64, .f32⟩
  | .local _ .vmem, ⟨6, _⟩ => ⟨S32x64, .f32⟩
  | .local _ .vmem, ⟨7, _⟩ => ⟨S1x64, .f32⟩
  | .local _ .vmem, ⟨8, _⟩ => ⟨S16000x64, .f32⟩
  | .local _ .vmem, ⟨9, _⟩ => ⟨S16000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S128x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  shapeCasts_S64_S1x64 : S64.ShapeCasts S1x64
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  inb_S16000x32_S16000x32_0_0 : ∀ a, (![0, 0] : Fin 2 → Nat) a + S16000x32.size a ≤ S16000x32.size a
  h_S16000x32 : 0 < S16000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  broadcasts_S16000x1_S16000x64 : S16000x1.Broadcasts S16000x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  bcast_S_S50000x64 : S_.BroadcastsInDim S50000x64 (![] : Fin 0 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S128x64_S128x64_0_0 : ∀ a, (![0, 0] : Fin 2 → Nat) a + S128x64.size a ≤ S128x64.size a
  h_S128x64 : 0 < S128x64.numel
  slices_S128x64_o0_0_S64x64 : S128x64.Slices ![0, 0] S64x64
  slices_S128x64_o64_0_S64x64 : S128x64.Slices ![64, 0] S64x64
  broadcasts_S1x64_S10000x64 : S1x64.Broadcasts S10000x64
  gather_S100x64_S50000x1_S50000x64_1_0_n_n_0_1_164_wf : GatherDims.WF S100x64 S50000x1 S50000x64 [1] [0] [] [0] [] 1 ![1, 64]
  gather_S50000x64_S1600000x1_S1600000x64_1_0_n_n_0_1_164_wf : GatherDims.WF S50000x64 S1600000x1 S1600000x64 [1] [0] [] [0] [] 1 ![1, 64]
  dot_S16000x32_S32x64_S16000x64_1_0_0_1_n_n_wf : DotDims.WF S16000x32 S32x64 S16000x64 [1] [0] [0] [1] [] []
  scatter_S50000x64_S1600000x1_S1600000x64_1_0_0_1_wf : ScatterDims.WF S50000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x32.size a ≤ S1600000x32.size a
  hwx0_0 : ∀ i : grid0.Coords, EltTy.bits .f32 = 32 ∨ (Rect.block (s := S1600000x32) S16000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x1.size a ≤ S1600000x1.size a
  hwx0_1 : ∀ i : grid0.Coords, EltTy.bits .f32 = 32 ∨ (Rect.block (s := S1600000x1) S16000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x64.size a ≤ S1600000x64.size a
  hwx0_2 : ∀ i : grid0.Coords, EltTy.bits .f32 = 32 ∨ (Rect.block (s := S1600000x64) S16000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x64.size a ≤ S1600000x64.size a
  hwx0_5 : ∀ i : grid0.Coords, EltTy.bits .f32 = 32 ∨ (Rect.block (s := S1600000x64) S16000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)

variable [Facts₀]

def gather_S100x64_S50000x1_S50000x64_1_0_n_n_0_1_164 : GatherDims S100x64 S50000x1 S50000x64 where
  offsetDims := [1]
  collapsedSliceDims := [0]
  operandBatchingDims := []
  startIndicesBatchingDims := []
  startIndexMap := [0]
  indexVectorDim := 1
  sliceSizes := ![1, 64]
  wf := gather_S100x64_S50000x1_S50000x64_1_0_n_n_0_1_164_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S16000x32_S32x64_S16000x64_1_0_0_1_n_n : DotDims S16000x32 S32x64 S16000x64 where
  lhsContracting := [1]
  rhsContracting := [0]
  lhsNonContracting := [0]
  rhsNonContracting := [1]
  lhsBatch := []
  rhsBatch := []
  wf := dot_S16000x32_S32x64_S16000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg5) S16000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S16000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S16000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S16000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000 : Shape := ⟨1, ![50000]⟩
abbrev S50000x64 : Shape := ⟨2, ![50000, 64]⟩
abbrev S1600000 : Shape := ⟨1, ![1600000]⟩
abbrev S1600000x32 : Shape := ⟨2, ![1600000, 32]⟩
abbrev S100x64 : Shape := ⟨2, ![100, 64]⟩
abbrev S32x64 : Shape := ⟨2, ![32, 64]⟩
abbrev S64 : Shape := ⟨1, ![64]⟩
abbrev S128x64 : Shape := ⟨2, ![128, 64]⟩
abbrev S_ : Shape := ⟨0, ![]⟩
abbrev S1600000x64 : Shape := ⟨2, ![1600000, 64]⟩
abbrev S1x64 : Shape := ⟨2, ![1, 64]⟩
abbrev S1600000x1 : Shape := ⟨2, ![1600000, 1]⟩
abbrev S50000x1 : Shape := ⟨2, ![50000, 1]⟩
abbrev S50000x128 : Shape := ⟨2, ![50000, 128]⟩

abbrev nBuf : Space → Nat
  | .hbm => 63
  | .vmem => 0
  | .smem => 0
  | _ => 0

abbrev bufTy : (tb : Table) → Fin (tcTables nBuf tb) → BufTy
  | .hbm, ⟨0, _⟩ => ⟨S50000, .i32⟩
  | .hbm, ⟨1, _⟩ => ⟨S50000x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S1600000x32, .f32⟩
  | .hbm, ⟨6, _⟩ => ⟨S100x64, .f32⟩
  | .hbm, ⟨7, _⟩ => ⟨S32x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S_, .f32⟩
  | .hbm, ⟨12, _⟩ => ⟨S1600000, .f32⟩
  | .hbm, ⟨13, _⟩ => ⟨S1600000, .f32⟩
  | .hbm, ⟨14, _⟩ => ⟨S1600000, .f32⟩
  | .hbm, ⟨15, _⟩ => ⟨S_, .f32⟩
  | .hbm, ⟨16, _⟩ => ⟨S1600000, .f32⟩
  | .hbm, ⟨17, _⟩ => ⟨S1600000, .f32⟩
  | .hbm, ⟨18, _⟩ => ⟨S_, .f32⟩
  | .hbm, ⟨19, _⟩ => ⟨S1600000, .f32⟩
  | .hbm, ⟨20, _⟩ => ⟨S1600000, .f32⟩
  | .hbm, ⟨21, _⟩ => ⟨S_, .f32⟩
  | .hbm, ⟨22, _⟩ => ⟨S1600000, .f32⟩
  | .hbm, ⟨23, _⟩ => ⟨S1600000, .i1⟩
  | .hbm, ⟨24, _⟩ => ⟨S_, .f32⟩
  | .hbm, ⟨25, _⟩ => ⟨S_, .f32⟩
  | .hbm, ⟨26, _⟩ => ⟨S1600000, .f32⟩
  | .hbm, ⟨27, _⟩ => ⟨S1600000, .f32⟩
  | .hbm, ⟨28, _⟩ => ⟨S1600000x64, .f32⟩
  | .hbm, ⟨29, _⟩ => ⟨S1x64, .f32⟩
  | .hbm, ⟨30, _⟩ => ⟨S1600000x64, .f32⟩
  | .hbm, ⟨31, _⟩ => ⟨S1600000x64, .f32⟩
  | .hbm, ⟨32, _⟩ => ⟨S1600000x1, .f32⟩
  | .hbm, ⟨33, _⟩ => ⟨S1600000x64, .f32⟩
  | .hbm, ⟨34, _⟩ => ⟨S1600000x64, .f32⟩
  | .hbm, ⟨35, _⟩ => ⟨S_, .i32⟩
  | .hbm, ⟨36, _⟩ => ⟨S50000, .i32⟩
  | .hbm, ⟨37, _⟩ => ⟨S50000, .i1⟩
  | .hbm, ⟨38, _⟩ => ⟨S_, .i32⟩
  | .hbm, ⟨39, _⟩ => ⟨S50000, .i32⟩
  | .hbm, ⟨40, _⟩ => ⟨S50000, .i32⟩
  | .hbm, ⟨41, _⟩ => ⟨S50000, .i32⟩
  | .hbm, ⟨42, _⟩ => ⟨S50000x1, .i32⟩
  | .hbm, ⟨43, _⟩ => ⟨S50000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S50000x64, .f32⟩
  | .hbm, ⟨56, _⟩ => ⟨S1600000x1, .i32⟩
  | .hbm, ⟨57, _⟩ => ⟨S50000x64, .f32⟩
  | .hbm, ⟨58, _⟩ => ⟨S50000x128, .f32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  dot_S1600000x32_S32x64_S1600000x64_1_0_0_1_n_n_wf : DotDims.WF S1600000x32 S32x64 S1600000x64 [1] [0] [0] [1] [] []
  gather_S100x64_S50000x1_S50000x64_1_0_n_n_0_1_164_wf : GatherDims.WF S100x64 S50000x1 S50000x64 [1] [0] [] [0] [] 1 ![1, 64]
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x128_S128x64_S50000x64_1_0_0_1_n_n_wf : DotDims.WF S50000x128 S128x64 S50000x64 [1] [0] [0] [1] [] []

variable [Facts₀]

def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def gather_S100x64_S50000x1_S50000x64_1_0_n_n_0_1_164 : GatherDims S100x64 S50000x1 S50000x64 where
  offsetDims := [1]
  collapsedSliceDims := [0]
  operandBatchingDims := []
  startIndicesBatchingDims := []
  startIndexMap := [0]
  indexVectorDim := 1
  sliceSizes := ![1, 64]
  wf := gather_S100x64_S50000x1_S50000x64_1_0_n_n_0_1_164_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Spec.lean ====
/-
  The message-passing layer as functions of whole arrays, index by index, on the extended reals.

  For an edge e and a channel j the message is  x_j(e, j) · ((Σ_k f(e, k) · P(k, j) + b(j)) · C(e)):  the sender's
  embedding row times the projected radial features, scaled by the edge's cutoff weight.  For a node n and a channel j
  the layer's result is  (Σ_{k<64} h(n, k) · K(k, j) + Σ_{k<64} a(n, k) · K(64 + k, j)) + β(j),  the node's own
  features against the upper half of the combining matrix plus the aggregated messages against its lower half.  The
  one law used between the two programs is that a sum over 128 contracted coordinates of the row  [h(n, ·) | a(n, ·)]
  is the sum of its two halves, which holds in any commutative additive monoid (no finiteness is needed).
-/
import Idealize.ShloMosaic.Lib.ValueIdx
import Idealize.ShloMosaic.PureOps.Ideal
import Idealize.ShloMosaic.Lib.Pipeline.Value
import Mathlib.Algebra.BigOperators.Fin

open scoped BigOperators

noncomputable section

namespace Cert.MsgPass

open Idealize.ShloMosaic Idealize.ShloMosaic.ValueIdx

/-- The message of edge `e` on channel `j`, the bias a `[1, 64]` row and the cutoff weights an `[E, 1]` column. -/
def msgAt (xj : (⟨2, ![1600000, 64]⟩ : Shape).Idx → EReal) (ef : (⟨2, ![1600000, 32]⟩ : Shape).Idx → EReal)
    (dpk : (⟨2, ![32, 64]⟩ : Shape).Idx → EReal) (b : (⟨2, ![1, 64]⟩ : Shape).Idx → EReal)
    (cw : (⟨2, ![1600000, 1]⟩ : Shape).Idx → EReal) (e : Fin 1600000) (j : Fin 64) : EReal :=
  xj (ix2 e j) * ((∑ k : Fin 32, ef (ix2 e k) * dpk (ix2 k j) + b (ix2 (0 : Fin 1) j)) * cw (ix2 e (0 : Fin 1)))

/-- All messages, as one array. -/
def msg (xj : (⟨2, ![1600000, 64]⟩ : Shape).Idx → EReal) (ef : (⟨2, ![1600000, 32]⟩ : Shape).Idx → EReal)
    (dpk : (⟨2, ![32, 64]⟩ : Shape).Idx → EReal) (b : (⟨2, ![1, 64]⟩ : Shape).Idx → EReal)
    (cw : (⟨2, ![1600000, 1]⟩ : Shape).Idx → EReal) : (⟨2, ![1600000, 64]⟩ : Shape).Idx → EReal :=
  fun i => msgAt xj ef dpk b cw (i 0) (i 1)

theorem msg_apply (xj : (⟨2, ![1600000, 64]⟩ : Shape).Idx → EReal) (ef : (⟨2, ![1600000, 32]⟩ : Shape).Idx → EReal)
    (dpk : (⟨2, ![32, 64]⟩ : Shape).Idx → EReal) (b : (⟨2, ![1, 64]⟩ : Shape).Idx → EReal)
    (cw : (⟨2, ![1600000, 1]⟩ : Shape).Idx → EReal) (e : Fin 1600000) (j : Fin 64) :
    msg xj ef dpk b cw (ix2 e j) = msgAt xj ef dpk b cw e j := rfl

/-- The layer's result at node `n` and channel `j`, the bias a `[1, 64]` row. -/
def outAt (nf agg : (⟨2, ![50000, 64]⟩ : Shape).Idx → EReal) (ck : (⟨2, ![128, 64]⟩ : Shape).Idx → EReal)
    (cb : (⟨2, ![1, 64]⟩ : Shape).Idx → EReal) (n : Fin 50000) (j : Fin 64) : EReal :=
  (∑ k : Fin 64, nf (ix2 n k) * ck (ix2 (Fin.castAdd 64 k : Fin 128) j)
    + ∑ k : Fin 64, agg (ix2 n k) * ck (ix2 (Fin.natAdd 64 k : Fin 128) j)) + cb (ix2 (0 : Fin 1) j)

/-- The layer's result, as one array. -/
def out (nf agg : (⟨2, ![50000, 64]⟩ : Shape).Idx → EReal) (ck : (⟨2, ![128, 64]⟩ : Shape).Idx → EReal)
    (cb : (⟨2, ![1, 64]⟩ : Shape).Idx → EReal) : (⟨2, ![50000, 64]⟩ : Shape).Idx → EReal :=
  fun i => outAt nf agg ck cb (i 0) (i 1)

theorem out_apply (nf agg : (⟨2, ![50000, 64]⟩ : Shape).Idx → EReal) (ck : (⟨2, ![128, 64]⟩ : Shape).Idx → EReal)
    (cb : (⟨2, ![1, 64]⟩ : Shape).Idx → EReal) (n : Fin 50000) (j : Fin 64) :
    out nf agg ck cb (ix2 n j) = outAt nf agg ck cb n j := rfl

/-- A sum over the 128 contracted coordinates is the sum over the first 64 plus the sum over the last 64. -/
theorem sum_halves {β : Type*} [AddCommMonoid β] (f : Fin 128 → β) :
    ∑ k : Fin 128, f k = ∑ k : Fin 64, f (Fin.castAdd 64 k) + ∑ k : Fin 64, f (Fin.natAdd 64 k) :=
  Fin.sum_univ_add (a := 64) (b := 64) f

/-- A `[a, 1]` column broadcast along its unit axis to `[a, b]` reads, at `(p, q)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.MsgPass

end
-- ==== Proof.BodyValue.lean ====
/-
  What the two kernel bodies compute, at the ideal values, entry by entry.

  The edge body multiplies its block of sender rows by  (F · P + b) · c : the block of radial features F (16000 × 32)
  against the projection P (32 × 64) as a matrix product into the zero accumulator, the bias row b broadcast over the
  rows, the cutoff column c broadcast over the channels.  Changes of float format are the identity at the ideal values
  and the product into zero is the plain sum over the contracted coordinate.

  The combining body adds the node block (10000 × 64) against rows 0..63 of the combining matrix and the aggregated
  block against rows 64..127, then the bias row.
-/
import proofs.«134730_j79508434583953_1_alg».proof.Proof.Gen.KernelIdeal.Skeleton
import proofs.«134730_j79508434583953_1_alg».proof.Proof.LibPlainMatmul
import proofs.«134730_j79508434583953_1_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.BodyValue

open Cert.KernelIdeal Cert.KernelIdeal.Gen Idealize.ShloMosaic Idealize.ShloMosaic.ValueIdx Idealize.ShloMosaic.PlainMatmul

/-- The edge body's stored value at row `p`, channel `q` of the block. -/
theorem edge_pay_apply (c : Vec Ideal S16000x1 .f32) (ef : Vec Ideal S16000x32 .f32) (dpk : Vec Ideal S32x64 .f32)
    (b : Vec Ideal S1x64 .f32) (xj : Vec Ideal S16000x64 .f32) (p : Fin 16000) (q : Fin 64) :
    k0_pay1 (F := Ideal) c ef dpk b xj (ix2 p q)
      = xj (ix2 p q) * ((∑ k : Fin 32, ef (ix2 p k) * dpk (ix2 k q) + b (ix2 (0 : Fin 1) q)) * c (ix2 p (0 : Fin 1))) := by
  unfold k0_pay1
  simp only [mulf_apply, addf_apply, shapeCast_self]
  rw [Cert.MsgPass.broadcastTo_a1_ab_apply, broadcastTo_1b_ab_apply,
    matmul_zero_apply dot_S16000x32_S32x64_S16000x64_1_0_0_1_n_n dot_S16000x32_S32x64_S16000x64_1_0_0_1_n_n_wf rfl]
  rfl

/-- The combining body's stored value at row `p`, channel `q` of the block. -/
theorem combine_pay_apply (nf ag : Vec Ideal S10000x64 .f32) (ck : Vec Ideal S128x64 .f32) (cb : Vec Ideal S1x64 .f32)
    (p : Fin 10000) (q : Fin 64) :
    k1_pay1 (F := Ideal) nf ag ck cb (ix2 p q)
      = (∑ k : Fin 64, nf (ix2 p k) * ck (ix2 (Fin.castAdd 64 k : Fin 128) q)
          + ∑ k : Fin 64, ag (ix2 p k) * ck (ix2 (Fin.natAdd 64 k : Fin 128) q)) + cb (ix2 (0 : Fin 1) q) := by
  unfold k1_pay1
  simp only [addf_apply, shapeCast_self]
  rw [broadcastTo_1b_ab_apply,
    matmul_zero_apply dot_S10000x64_S64x64_S10000x64_1_0_0_1_n_n dot_S10000x64_S64x64_S10000x64_1_0_0_1_n_n_wf rfl,
    matmul_zero_apply dot_S10000x64_S64x64_S10000x64_1_0_0_1_n_n dot_S10000x64_S64x64_S10000x64_1_0_0_1_n_n_wf rfl]
  congr 1
  congr 1
  · refine Finset.sum_congr rfl fun k _ => ?_
    rw [slice2_axis0_apply 0 _ slices_S128x64_o0_0_S64x64 k q (Fin.castAdd 64 k) (by simp)]
    rfl
  · refine Finset.sum_congr rfl fun k _ => ?_
    rw [slice2_axis0_apply 64 _ slices_S128x64_o64_0_S64x64 k q (Fin.natAdd 64 k) rfl]
    rfl

end Cert.KernelIdeal.BodyValue

end
-- ==== Proof.RegionValue.lean ====
/-
  Each kernel region as a function of the arrays it finds, whole array by whole array.

  Region 0 has 100 grid points; point t fetches rows 16000·t .. 16000·t + 15999 of the radial features, of the cutoff
  column and of the gathered sender rows, the whole projection and bias row, and writes back the same rows of the
  message array.  The written blocks tile the message array (row r lies in the block of point r / 16000), so after the
  region the message array is the message function of the arrays at every index.

  Region 1 has 5 grid points; point t fetches rows 10000·t .. 10000·t + 9999 of the node features and of the aggregated
  messages, the whole combining matrix and bias row, and writes back the same rows of the result; the blocks tile it.
-/
import proofs.«134730_j79508434583953_1_alg».proof.Proof.Gen.KernelIdeal.Frame
import proofs.«134730_j79508434583953_1_alg».proof.Proof.BodyValue
import proofs.«134730_j79508434583953_1_alg».proof.Proof.Spec
import Idealize.ShloMosaic.Lib.Pipeline.Value

set_option maxRecDepth 16384

open scoped BigOperators

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The block index of every window of region 0 at every grid point: the row windows are at block row `t`, the two
    whole-array windows at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `16000·t + p` of the array. -/
def row0 (t : Fin cfg0.N) (p : Fin 16000) : Fin 1600000 :=
  ⟨t.val * 16000 + p.val, by have ht : t.val < cfg0.N := t.isLt; have hN : cfg0.N = 100 := N_0; have := p.isLt; omega⟩

theorem emb0_0 (t : Fin cfg0.N) (p : Fin 16000) (k : Fin 32) :
    ((cfg0.win 0).blk t).view.emb (ix2 p k) = ix2 (row0 t p) k := by
  obtain ⟨e0, e1, -⟩ := idx0 t
  funext a; apply Fin.ext
  match a with
  | ⟨0, _⟩ => show win0_0.index t (0 : Fin 2) * 16000 + 1 * p.val = t.val * 16000 + p.val; omega
  | ⟨1, _⟩ => show win0_0.index t (1 : Fin 2) * 32 + 1 * k.val = k.val; omega

theorem emb0_1 (t : Fin cfg0.N) (p : Fin 16000) (k : Fin 1) :
    ((cfg0.win 1).blk t).view.emb (ix2 p k) = ix2 (row0 t p) k := by
  obtain ⟨-, -, e0, e1, -⟩ := idx0 t
  funext a; apply Fin.ext
  match a with
  | ⟨0, _⟩ => show win0_1.index t (0 : Fin 2) * 16000 + 1 * p.val = t.val * 16000 + p.val; omega
  | ⟨1, _⟩ => show win0_1.index t (1 : Fin 2) * 1 + 1 * k.val = k.val; omega

theorem emb0_2 (t : Fin cfg0.N) (p : Fin 16000) (k : Fin 64) :
    ((cfg0.win 2).blk t).view.emb (ix2 p k) = ix2 (row0 t p) k := by
  obtain ⟨-, -, -, -, e0, e1, -⟩ := idx0 t
  funext a; apply Fin.ext
  match a with
  | ⟨0, _⟩ => show win0_2.index t (0 : Fin 2) * 16000 + 1 * p.val = t.val * 16000 + p.val; omega
  | ⟨1, _⟩ => show win0_2.index t (1 : Fin 2) * 64 + 1 * k.val = k.val; omega

theorem emb0_3 (t : Fin cfg0.N) (p : Fin 32) (k : Fin 64) :
    ((cfg0.win 3).blk t).view.emb (ix2 p k) = ix2 p k := by
  obtain ⟨-, -, -, -, -, -, e0, e1, -⟩ := idx0 t
  funext a; apply Fin.ext
  match a with
  | ⟨0, _⟩ => show win0_3.index t (0 : Fin 2) * 32 + 1 * p.val = p.val; omega
  | ⟨1, _⟩ => show win0_3.index t (1 : Fin 2) * 64 + 1 * k.val = k.val; omega

theorem emb0_4 (t : Fin cfg0.N) (p : Fin 1) (k : Fin 64) :
    ((cfg0.win 4).blk t).view.emb (ix2 p k) = ix2 p k := by
  obtain ⟨-, -, -, -, -, -, -, -, e0, e1, -⟩ := idx0 t
  funext a; apply Fin.ext
  match a with
  | ⟨0, _⟩ => show win0_4.index t (0 : Fin 2) * 1 + 1 * p.val = p.val; omega
  | ⟨1, _⟩ => show win0_4.index t (1 : Fin 2) * 64 + 1 * k.val = k.val; omega

theorem emb0_5 (t : Fin cfg0.N) (p : Fin 16000) (k : Fin 64) :
    ((cfg0.win 5).blk t).view.emb (ix2 p k) = ix2 (row0 t p) k := by
  obtain ⟨-, -, -, -, -, -, -, -, -, -, e0, e1⟩ := idx0 t
  funext a; apply Fin.ext
  match a with
  | ⟨0, _⟩ => show win0_5.index t (0 : Fin 2) * 16000 + 1 * p.val = t.val * 16000 + p.val; omega
  | ⟨1, _⟩ => show win0_5.index t (1 : Fin 2) * 64 + 1 * k.val = k.val; omega

/-- The arrays region 0 finds, by name. -/
abbrev efArr (c : Dev nD) : S1600000x32.Idx → EReal := V c main_arg5
abbrev cwArr (c : Dev nD) : S1600000x1.Idx → EReal := V c main_v24
abbrev xjArr (c : Dev nD) : S1600000x64.Idx → EReal := V c main_v13
abbrev dpkArr (c : Dev nD) : S32x64.Idx → EReal := V c main_arg7
abbrev dpbArr (c : Dev nD) : S1x64.Idx → EReal := V c main_v25

theorem iblk0_0 (c : Dev nD) (t : Fin cfg0.N) (p : Fin 16000) (k : Fin 32) :
    iblk0 V c 0 t (ix2 p k) = efArr V c (ix2 (row0 t p) k) := by
  show (V c main_arg5 : S1600000x32.Idx → EReal) (((cfg0.win 0).blk t).view.emb (ix2 p k)) = _
  rw [emb0_0]
theorem iblk0_1 (c : Dev nD) (t : Fin cfg0.N) (p : Fin 16000) (k : Fin 1) :
    iblk0 V c 1 t (ix2 p k) = cwArr V c (ix2 (row0 t p) k) := by
  show (V c main_v24 : S1600000x1.Idx → EReal) (((cfg0.win 1).blk t).view.emb (ix2 p k)) = _
  rw [emb0_1]
theorem iblk0_2 (c : Dev nD) (t : Fin cfg0.N) (p : Fin 16000) (k : Fin 64) :
    iblk0 V c 2 t (ix2 p k) = xjArr V c (ix2 (row0 t p) k) := by
  show (V c main_v13 : S1600000x64.Idx → EReal) (((cfg0.win 2).blk t).view.emb (ix2 p k)) = _
  rw [emb0_2]
theorem iblk0_3 (c : Dev nD) (t : Fin cfg0.N) (p : Fin 32) (k : Fin 64) :
    iblk0 V c 3 t (ix2 p k) = dpkArr V c (ix2 p k) := by
  show (V c main_arg7 : S32x64.Idx → EReal) (((cfg0.win 3).blk t).view.emb (ix2 p k)) = _
  rw [emb0_3]
theorem iblk0_4 (c : Dev nD) (t : Fin cfg0.N) (p : Fin 1) (k : Fin 64) :
    iblk0 V c 4 t (ix2 p k) = dpbArr V c (ix2 p k) := by
  show (V c main_v25 : S1x64.Idx → EReal) (((cfg0.win 4).blk t).view.emb (ix2 p k)) = _
  rw [emb0_4]

/-- What point `t` writes back is block `t` of the message array of the arrays the region finds. -/
theorem flushed0 (c : Dev nD) (t : Fin cfg0.N) :
    (dat0 V c).flushed 5 t = ((cfg0.win 5).blk t).view.read (Elt Ideal)
      (Cert.MsgPass.msg (xjArr V c) (efArr V c) (dpkArr V c) (dpbArr V c) (cwArr V c)) := by
  show (cfg0.win 5).cut (grid0.coords t) ((dat0 V c).after 5 t) = _
  rw [after0_5]
  unfold out0_5
  rw [View.canon_unit_zero hz]
  simp only [View.ld_unit_zero (S := S16000x1) hz, View.ld_unit_zero (S := S16000x32) hz, View.ld_unit_zero (S := S32x64) hz,
    View.ld_unit_zero (S := S1x64) hz, View.ld_unit_zero (S := S16000x64) hz]
  funext j
  obtain ⟨p, q, rfl⟩ : ∃ (p : Fin 16000) (q : Fin 64), j = ix2 p q := ⟨j 0, j 1, eq_ix2 j⟩
  show k0_pay1 (F := Ideal) (iblk0 V c 1 t) (iblk0 V c 0 t) (iblk0 V c 3 t) (iblk0 V c 4 t) (iblk0 V c 2 t) (ix2 p q)
    = Cert.MsgPass.msg (xjArr V c) (efArr V c) (dpkArr V c) (dpbArr V c) (cwArr V c) (((cfg0.win 5).blk t).view.emb (ix2 p q))
  rw [emb0_5, Cert.MsgPass.msg_apply]
  refine (BodyValue.edge_pay_apply (iblk0 V c 1 t) (iblk0 V c 0 t) (iblk0 V c 3 t) (iblk0 V c 4 t) (iblk0 V c 2 t) p q).trans ?_
  simp only [iblk0_0, iblk0_1, iblk0_2, iblk0_3, iblk0_4]
  rfl

theorem mem_blk0 (t : Fin cfg0.N) (i : S1600000x64.Idx) :
    i ∈ ((cfg0.win 5).blk t).view.set ↔ ∀ a : Fin 2, win0_5.index t a * S16000x64.size a ≤ (i a).val ∧ (i a).val < win0_5.index t a * S16000x64.size a + S16000x64.size a := by
  show i ∈ ((View.whole main_v26).slice (win0_5.rect t)).set ↔ _
  rw [View.set_slice_whole, Rect.mem_set_unit]
  exact Iff.rfl

/-- Every index of the message array is in the block of the point its row falls in. -/
theorem cover0 (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  let t : Fin cfg0.N := ⟨(i 0).val / 16000, by rw [show cfg0.N = 100 from N_0]; omega⟩
  obtain ⟨-, -, -, -, -, -, -, -, -, -, e0, e1⟩ := idx0 t
  have ht : t.val = (i 0).val / 16000 := rfl
  refine ⟨t, flush0_5 t, ?_⟩
  rw [mem_blk0]
  intro a
  match a with
  | ⟨0, _⟩ => show win0_5.index t (0 : Fin 2) * 16000 ≤ (i 0).val ∧ (i 0).val < win0_5.index t (0 : Fin 2) * 16000 + 16000; omega
  | ⟨1, _⟩ => show win0_5.index t (1 : Fin 2) * 64 ≤ (i 1).val ∧ (i 1).val < win0_5.index t (1 : Fin 2) * 64 + 64; omega

/-- After region 0 the message array holds the message function of the arrays the region found. -/
theorem final0 (c : Dev nD) :
    (dat0 V c).arrAt 5 cfg0.N = Cert.MsgPass.msg (xjArr V c) (efArr V c) (dpkArr V c) (dpbArr V c) (cwArr V c) :=
  (dat0 V c).arrAt_eq_of_cover 5 _ (fun t _ => flushed0 V c t) cover0

/-! ## Region 1 -/

/-- The block index of every window of region 1 at every grid point. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of point `t`'s block is row `10000·t + p` of the array. -/
def row1 (t : Fin cfg1.N) (p : Fin 10000) : Fin 50000 :=
  ⟨t.val * 10000 + p.val, by have ht : t.val < cfg1.N := t.isLt; have hN : cfg1.N = 5 := N_1; have := p.isLt; omega⟩

theorem emb1_0 (t : Fin cfg1.N) (p : Fin 10000) (k : Fin 64) :
    ((cfg1.win 0).blk t).view.emb (ix2 p k) = ix2 (row1 t p) k := by
  obtain ⟨e0, e1, -⟩ := idx1 t
  funext a; apply Fin.ext
  match a with
  | ⟨0, _⟩ => show win1_0.index t (0 : Fin 2) * 10000 + 1 * p.val = t.val * 10000 + p.val; omega
  | ⟨1, _⟩ => show win1_0.index t (1 : Fin 2) * 64 + 1 * k.val = k.val; omega

theorem emb1_1 (t : Fin cfg1.N) (p : Fin 10000) (k : Fin 64) :
    ((cfg1.win 1).blk t).view.emb (ix2 p k) = ix2 (row1 t p) k := by
  obtain ⟨-, -, e0, e1, -⟩ := idx1 t
  funext a; apply Fin.ext
  match a with
  | ⟨0, _⟩ => show win1_1.index t (0 : Fin 2) * 10000 + 1 * p.val = t.val * 10000 + p.val; omega
  | ⟨1, _⟩ => show win1_1.index t (1 : Fin 2) * 64 + 1 * k.val = k.val; omega

theorem emb1_2 (t : Fin cfg1.N) (p : Fin 128) (k : Fin 64) :
    ((cfg1.win 2).blk t).view.emb (ix2 p k) = ix2 p k := by
  obtain ⟨-, -, -, -, e0, e1, -⟩ := idx1 t
  funext a; apply Fin.ext
  match a with
  | ⟨0, _⟩ => show win1_2.index t (0 : Fin 2) * 128 + 1 * p.val = p.val; omega
  | ⟨1, _⟩ => show win1_2.index t (1 : Fin 2) * 64 + 1 * k.val = k.val; omega

theorem emb1_3 (t : Fin cfg1.N) (p : Fin 1) (k : Fin 64) :
    ((cfg1.win 3).blk t).view.emb (ix2 p k) = ix2 p k := by
  obtain ⟨-, -, -, -, -, -, e0, e1, -⟩ := idx1 t
  funext a; apply Fin.ext
  match a with
  | ⟨0, _⟩ => show win1_3.index t (0 : Fin 2) * 1 + 1 * p.val = p.val; omega
  | ⟨1, _⟩ => show win1_3.index t (1 : Fin 2) * 64 + 1 * k.val = k.val; omega

theorem emb1_4 (t : Fin cfg1.N) (p : Fin 10000) (k : Fin 64) :
    ((cfg1.win 4).blk t).view.emb (ix2 p k) = ix2 (row1 t p) k := by
  obtain ⟨-, -, -, -, -, -, -, -, e0, e1⟩ := idx1 t
  funext a; apply Fin.ext
  match a with
  | ⟨0, _⟩ => show win1_4.index t (0 : Fin 2) * 10000 + 1 * p.val = t.val * 10000 + p.val; omega
  | ⟨1, _⟩ => show win1_4.index t (1 : Fin 2) * 64 + 1 * k.val = k.val; omega

/-- The arrays region 1 finds, by name. -/
abbrev nfArr (c : Dev nD) : S50000x64.Idx → EReal := V c main_arg1
abbrev aggArr (c : Dev nD) : S50000x64.Idx → EReal := V c main_v29
abbrev ckArr (c : Dev nD) : S128x64.Idx → EReal := V c main_arg9
abbrev cbArr (c : Dev nD) : S1x64.Idx → EReal := V c main_v30

theorem iblk1_0 (c : Dev nD) (t : Fin cfg1.N) (p : Fin 10000) (k : Fin 64) :
    iblk1 V c 0 t (ix2 p k) = nfArr V c (ix2 (row1 t p) k) := by
  show (V c main_arg1 : S50000x64.Idx → EReal) (((cfg1.win 0).blk t).view.emb (ix2 p k)) = _
  rw [emb1_0]
theorem iblk1_1 (c : Dev nD) (t : Fin cfg1.N) (p : Fin 10000) (k : Fin 64) :
    iblk1 V c 1 t (ix2 p k) = aggArr V c (ix2 (row1 t p) k) := by
  show (V c main_v29 : S50000x64.Idx → EReal) (((cfg1.win 1).blk t).view.emb (ix2 p k)) = _
  rw [emb1_1]
theorem iblk1_2 (c : Dev nD) (t : Fin cfg1.N) (p : Fin 128) (k : Fin 64) :
    iblk1 V c 2 t (ix2 p k) = ckArr V c (ix2 p k) := by
  show (V c main_arg9 : S128x64.Idx → EReal) (((cfg1.win 2).blk t).view.emb (ix2 p k)) = _
  rw [emb1_2]
theorem iblk1_3 (c : Dev nD) (t : Fin cfg1.N) (p : Fin 1) (k : Fin 64) :
    iblk1 V c 3 t (ix2 p k) = cbArr V c (ix2 p k) := by
  show (V c main_v30 : S1x64.Idx → EReal) (((cfg1.win 3).blk t).view.emb (ix2 p k)) = _
  rw [emb1_3]

/-- What point `t` writes back is block `t` of the layer's result array of the arrays the region finds. -/
theorem flushed1 (c : Dev nD) (t : Fin cfg1.N) :
    (dat1 V c).flushed 4 t = ((cfg1.win 4).blk t).view.read (Elt Ideal)
      (Cert.MsgPass.out (nfArr V c) (aggArr V c) (ckArr V c) (cbArr V c)) := by
  show (cfg1.win 4).cut (grid1.coords t) ((dat1 V c).after 4 t) = _
  rw [after1_4]
  unfold out1_4
  rw [View.canon_unit_zero hz]
  simp only [View.ld_unit_zero (S := S10000x64) hz, View.ld_unit_zero (S := S128x64) hz, View.ld_unit_zero (S := S1x64) hz]
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (iblk1 V c 3 t) (ix2 p q)
    = Cert.MsgPass.out (nfArr V c) (aggArr V c) (ckArr V c) (cbArr V c) (((cfg1.win 4).blk t).view.emb (ix2 p q))
  rw [emb1_4, Cert.MsgPass.out_apply]
  refine (BodyValue.combine_pay_apply (iblk1 V c 0 t) (iblk1 V c 1 t) (iblk1 V c 2 t) (iblk1 V c 3 t) p q).trans ?_
  simp only [iblk1_0, iblk1_1, iblk1_2, iblk1_3]
  rfl

theorem mem_blk1 (t : Fin cfg1.N) (i : S50000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v31).slice (win1_4.rect t)).set ↔ _
  rw [View.set_slice_whole, Rect.mem_set_unit]
  exact Iff.rfl

/-- Every index of the result array is in the block of the point its row falls in. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  let t : Fin cfg1.N := ⟨(i 0).val / 10000, by rw [show cfg1.N = 5 from N_1]; omega⟩
  obtain ⟨-, -, -, -, -, -, -, -, e0, e1⟩ := idx1 t
  have ht : t.val = (i 0).val / 10000 := rfl
  refine ⟨t, flush1_4 t, ?_⟩
  rw [mem_blk1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- After region 1 the result array holds the layer's result function of the arrays the region found. -/
theorem final1 (c : Dev nD) :
    (dat1 V c).arrAt 4 cfg1.N = Cert.MsgPass.out (nfArr V c) (aggArr V c) (ckArr V c) (cbArr V c) :=
  (dat1 V c).arrAt_eq_of_cover 4 _ (fun t _ => flushed1 V c t) cover1

end Cert.KernelIdeal.RegionValue

end
-- ==== Proof.HostValue.lean ====
/-
  The host operations around the two kernel regions, read through the segment boundaries.

  Before region 0 the host gathers the embedding rows of the senders (two gathers with wrapped negative indices),
  computes the cosine cutoff weight of every edge and reshapes it to a column, and reshapes the projection bias to a row;
  none of them writes an argument array.  Between the regions it scatters the messages to their receivers by addition
  into a zero array and reshapes the combining bias to a row.  So the result buffer ends at the layer's result function
  of the node features, the scattered messages, the combining matrix and the combining bias row, where the messages are
  the message function of the gathered rows, the radial features, the projection, the bias row and the cutoff column.
  The gathered rows and the cutoff weights are the same host operations the reference applies to the same arguments,
  and are named by the reference's stages.
-/
import proofs.«134730_j79508434583953_1_alg».proof.Proof.Gen.KernelIdeal.Frame
import proofs.«134730_j79508434583953_1_alg».proof.Proof.RegionValue
import proofs.«134730_j79508434583953_1_alg».proof.Proof.Gen.ReferenceIdeal.Read
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo
open Cert.KernelIdeal.RegionValue

variable (m : (ℓ : Loc nD τ sig) → Buf (Elt Ideal) ℓ) (ρ : Dev nD → PrngReg)

/-- The argument arrays as launched, by name. -/
abbrev x0 (c : Dev nD) : (⟨S50000, .i32⟩ : BufTy).Contents (Elt Ideal) := m ((c : Thread nD τ).loc main_arg0)
abbrev x1 (c : Dev nD) : (⟨S50000x64, .f32⟩ : BufTy).Contents (Elt Ideal) := m ((c : Thread nD τ).loc main_arg1)
abbrev x2 (c : Dev nD) : (⟨S1600000, .i32⟩ : BufTy).Contents (Elt Ideal) := m ((c : Thread nD τ).loc main_arg2)
abbrev x3 (c : Dev nD) : (⟨S1600000, .i32⟩ : BufTy).Contents (Elt Ideal) := m ((c : Thread nD τ).loc main_arg3)
abbrev x4 (c : Dev nD) : (⟨S1600000, .f32⟩ : BufTy).Contents (Elt Ideal) := m ((c : Thread nD τ).loc main_arg4)
abbrev x5 (c : Dev nD) : (⟨S1600000x32, .f32⟩ : BufTy).Contents (Elt Ideal) := m ((c : Thread nD τ).loc main_arg5)
abbrev x6 (c : Dev nD) : (⟨S100x64, .f32⟩ : BufTy).Contents (Elt Ideal) := m ((c : Thread nD τ).loc main_arg6)
abbrev x7 (c : Dev nD) : (⟨S32x64, .f32⟩ : BufTy).Contents (Elt Ideal) := m ((c : Thread nD τ).loc main_arg7)
abbrev x8 (c : Dev nD) : (⟨S64, .f32⟩ : BufTy).Contents (Elt Ideal) := m ((c : Thread nD τ).loc main_arg8)
abbrev x9 (c : Dev nD) : (⟨S128x64, .f32⟩ : BufTy).Contents (Elt Ideal) := m ((c : Thread nD τ).loc main_arg9)
abbrev x10 (c : Dev nD) : (⟨S64, .f32⟩ : BufTy).Contents (Elt Ideal) := m ((c : Thread nD τ).loc main_arg10)

/-! ## Region 0's entry -/

theorem ef_entry (c : Dev nD) : efArr (V3 m ρ) c = x5 m c := by
  show StableHlo.after hostOps0_2 (StableHlo.after hostOps0_1 (StableHlo.after hostOps0 (W0 m ρ c))) (Proc.devRef .tc main_arg5) = _
  after_results_simp <;> rfl

theorem dpk_entry (c : Dev nD) : dpkArr (V3 m ρ) c = x7 m c := by
  show StableHlo.after hostOps0_2 (StableHlo.after hostOps0_1 (StableHlo.after hostOps0 (W0 m ρ c))) (Proc.devRef .tc main_arg7) = _
  after_results_simp <;> rfl

theorem dpb_entry (c : Dev nD) : dpbArr (V3 m ρ) c = shapeCast S1x64 (x8 m c) shapeCasts_S64_S1x64 := by
  show StableHlo.after hostOps0_2 (StableHlo.after hostOps0_1 (StableHlo.after hostOps0 (W0 m ρ c))) (Proc.devRef .tc main_v25) = _
  after_results_simp <;> rfl

theorem xj_entry (c : Dev nD) : xjArr (V3 m ρ) c = Cert.ReferenceIdeal.Read.val_main_v30 (F := Ideal) (x0 m c) (x2 m c) (x6 m c) := by
  show StableHlo.after hostOps0_2 (StableHlo.after hostOps0_1 (StableHlo.after hostOps0 (W0 m ρ c))) (Proc.devRef .tc main_v13) = _
  after_results_simp <;> rfl

theorem cw_entry (c : Dev nD) : cwArr (V3 m ρ) c
    = shapeCast S1600000x1 (Cert.ReferenceIdeal.Read.val_main_v9 (F := Ideal) (x4 m c)) shapeCasts_S1600000_S1600000x1 := by
  show StableHlo.after hostOps0_2 (StableHlo.after hostOps0_1 (StableHlo.after hostOps0 (W0 m ρ c))) (Proc.devRef .tc main_v24) = _
  after_results_simp <;> rfl

/-! ## Between the regions -/

/-- After region 0 the message buffer holds the message function of the launch arrays. -/
theorem msgs_exit (c : Dev nD) : W4 m ρ c (Proc.devRef .tc main_v26)
    = Cert.MsgPass.msg (Cert.ReferenceIdeal.Read.val_main_v30 (F := Ideal) (x0 m c) (x2 m c) (x6 m c)) (x5 m c) (x7 m c)
        (shapeCast S1x64 (x8 m c) shapeCasts_S64_S1x64)
        (shapeCast S1600000x1 (Cert.ReferenceIdeal.Read.val_main_v9 (F := Ideal) (x4 m c)) shapeCasts_S1600000_S1600000x1) := by
  refine (W4_arr m ρ c 5).trans ?_
  rw [RegionValue.final0 (V3 m ρ) c, xj_entry, ef_entry, dpk_entry, dpb_entry, cw_entry]

theorem arg1_exit (c : Dev nD) : W4 m ρ c (Proc.devRef .tc main_arg1) = x1 m c := by
  rw [W4_of_ne m ρ c main_arg1 (by decide)]
  show StableHlo.after hostOps0_2 (StableHlo.after hostOps0_1 (StableHlo.after hostOps0 (W0 m ρ c))) (Proc.devRef .tc main_arg1) = _
  after_results_simp <;> rfl

theorem arg3_exit (c : Dev nD) : W4 m ρ c (Proc.devRef .tc main_arg3) = x3 m c := by
  rw [W4_of_ne m ρ c main_arg3 (by decide)]
  show StableHlo.after hostOps0_2 (StableHlo.after hostOps0_1 (StableHlo.after hostOps0 (W0 m ρ c))) (Proc.devRef .tc main_arg3) = _
  after_results_simp <;> rfl

theorem arg9_exit (c : Dev nD) : W4 m ρ c (Proc.devRef .tc main_arg9) = x9 m c := by
  rw [W4_of_ne m ρ c main_arg9 (by decide)]
  show StableHlo.after hostOps0_2 (StableHlo.after hostOps0_1 (StableHlo.after hostOps0 (W0 m ρ c))) (Proc.devRef .tc main_arg9) = _
  after_results_simp <;> rfl

theorem arg10_exit (c : Dev nD) : W4 m ρ c (Proc.devRef .tc main_arg10) = x10 m c := by
  rw [W4_of_ne m ρ c main_arg10 (by decide)]
  show StableHlo.after hostOps0_2 (StableHlo.after hostOps0_1 (StableHlo.after hostOps0 (W0 m ρ c))) (Proc.devRef .tc main_arg10) = _
  after_results_simp <;> rfl

/-! ## Region 1's entry -/

theorem nf_entry (c : Dev nD) : nfArr (V5 m ρ) c = x1 m c := by
  show StableHlo.after hostOps1 (W4 m ρ c) (Proc.devRef .tc main_arg1) = _
  after_results_simp
  exact arg1_exit m ρ c

theorem ck_entry (c : Dev nD) : ckArr (V5 m ρ) c = x9 m c := by
  show StableHlo.after hostOps1 (W4 m ρ c) (Proc.devRef .tc main_arg9) = _
  after_results_simp
  exact arg9_exit m ρ c

theorem cb_entry (c : Dev nD) : cbArr (V5 m ρ) c = shapeCast S1x64 (x10 m c) shapeCasts_S64_S1x64 := by
  show StableHlo.after hostOps1 (W4 m ρ c) (Proc.devRef .tc main_v30) = _
  after_results_simp
  rw [arg10_exit]
  rfl

/-- The aggregated messages: the scatter by addition, into a zero array, of the message function's rows to the
    receivers' rows. -/
theorem agg_entry (c : Dev nD) : aggArr (V5 m ρ) c
    = Host.scatterAdd scatter_S50000x64_S1600000x1_S1600000x64_1_0_0_1
        (broadcastInDim S50000x64 ![] bcast_S_S50000x64 (constant (F := Ideal) S_ .f32 0x00000000#32))
        (broadcastInDim S1600000x1 ![0] bcast_S1600000_S1600000x1_0 (x3 m c))
        (Cert.MsgPass.msg (Cert.ReferenceIdeal.Read.val_main_v30 (F := Ideal) (x0 m c) (x2 m c) (x6 m c)) (x5 m c) (x7 m c)
          (shapeCast S1x64 (x8 m c) shapeCasts_S64_S1x64)
          (shapeCast S1600000x1 (Cert.ReferenceIdeal.Read.val_main_v9 (F := Ideal) (x4 m c)) shapeCasts_S1600000_S1600000x1)) := by
  show StableHlo.after hostOps1 (W4 m ρ c) (Proc.devRef .tc main_v29) = _
  after_results_simp
  rw [arg3_exit, msgs_exit]

/-! ## The result -/

/-- The result buffer after the last segment: the layer's result function of the launch arrays. -/
theorem result_eq (c : Dev nD) : W6 m ρ c (Proc.devRef .tc main_v31)
    = Cert.MsgPass.out (x1 m c)
        (Host.scatterAdd scatter_S50000x64_S1600000x1_S1600000x64_1_0_0_1
          (broadcastInDim S50000x64 ![] bcast_S_S50000x64 (constant (F := Ideal) S_ .f32 0x00000000#32))
          (broadcastInDim S1600000x1 ![0] bcast_S1600000_S1600000x1_0 (x3 m c))
          (Cert.MsgPass.msg (Cert.ReferenceIdeal.Read.val_main_v30 (F := Ideal) (x0 m c) (x2 m c) (x6 m c)) (x5 m c) (x7 m c)
            (shapeCast S1x64 (x8 m c) shapeCasts_S64_S1x64)
            (shapeCast S1600000x1 (Cert.ReferenceIdeal.Read.val_main_v9 (F := Ideal) (x4 m c)) shapeCasts_S1600000_S1600000x1)))
        (x9 m c) (shapeCast S1x64 (x10 m c) shapeCasts_S64_S1x64) := by
  refine (W6_arr m ρ c 4).trans ?_
  rw [RegionValue.final1 (V5 m ρ) c, nf_entry, agg_entry, ck_entry, cb_entry]

end Cert.KernelIdeal.HostValue

end
-- ==== Proof.RefValue.lean ====
/-
  The reference's stages are the message-passing functions of the specification.

  The reference multiplies the gathered sender rows by (F · P + b) · C with the bias and the cutoff weights broadcast
  over the edge-by-channel array; entry by entry this is the message function, the bias row and the cutoff column being
  the reshaped bias and cutoff vectors.  Its result is the row [h(n, ·) | a(n, ·)] of node features and aggregated
  messages against the whole combining matrix plus the bias; the contraction over 128 coordinates splits into its two
  halves, the first reading the node features and the second the aggregated messages.
-/
import proofs.«134730_j79508434583953_1_alg».proof.Proof.Gen.ReferenceIdeal.Read
import proofs.«134730_j79508434583953_1_alg».proof.Proof.Spec
import Idealize.ShloMosaic.Lib.ValueLayout

open scoped BigOperators

noncomputable section

namespace Cert.ReferenceIdeal.RefValue

open Cert.ReferenceIdeal Cert.ReferenceIdeal.Gen Cert.ReferenceIdeal.Read Idealize.ShloMosaic Idealize.ShloMosaic.ValueIdx

variable (x0 : (⟨S50000, .i32⟩ : BufTy).Contents (Elt Ideal)) (x1 : (⟨S50000x64, .f32⟩ : BufTy).Contents (Elt Ideal))
  (x2 x3 : (⟨S1600000, .i32⟩ : BufTy).Contents (Elt Ideal)) (x4 : (⟨S1600000, .f32⟩ : BufTy).Contents (Elt Ideal))
  (x5 : (⟨S1600000x32, .f32⟩ : BufTy).Contents (Elt Ideal)) (x6 : (⟨S100x64, .f32⟩ : BufTy).Contents (Elt Ideal))
  (x7 : (⟨S32x64, .f32⟩ : BufTy).Contents (Elt Ideal)) (x8 : (⟨S64, .f32⟩ : BufTy).Contents (Elt Ideal))
  (x9 : (⟨S128x64, .f32⟩ : BufTy).Contents (Elt Ideal)) (x10 : (⟨S64, .f32⟩ : BufTy).Contents (Elt Ideal))

/-- A vector reshaped to a one-column matrix reads, at `(e, 0)`, the vector at `e`. -/
theorem shapeCast_a_a1_apply {α : Type} {a : ℕ} (x : (⟨1, ![a]⟩ : Shape).Idx → α)
    (h : (⟨1, ![a]⟩ : Shape).ShapeCasts ⟨2, ![a, 1]⟩) (e : Fin a) :
    shapeCast ⟨2, ![a, 1]⟩ x h (ix2 e (0 : Fin 1)) = x (ix1 e) := by
  refine shapeCast_apply x h (ix2 e (0 : Fin 1)) (ix1 e) ?_
  rw [Shape.rowMajor_val_one, Shape.rowMajor_val_two]
  show e.val = e.val * 1 + 0
  omega

/-- The reference's product of the gathered rows with the scaled projection is the message function. -/
theorem msg_eq (hb : S64.ShapeCasts S1x64) (hc : S1600000.ShapeCasts S1600000x1) :
    Cert.MsgPass.msg (val_main_v30 (F := Ideal) x0 x2 x6) x5 x7 (shapeCast S1x64 x8 hb)
        (shapeCast S1600000x1 (val_main_v9 (F := Ideal) x4) hc)
      = val_main_v31 (F := Ideal) x0 x2 x4 x5 x6 x7 x8 := by
  funext i
  obtain ⟨e, j, rfl⟩ : ∃ (e : Fin 1600000) (j : Fin 64), i = ix2 e j := ⟨i 0, i 1, eq_ix2 i⟩
  rw [Cert.MsgPass.msg_apply, val_main_v31_apply, val_main_v16_apply, val_main_v13_apply, val_main_v10_apply,
    val_main_v12_apply, val_main_v11_apply, val_main_v15_apply, val_main_v14_apply]
  unfold Cert.MsgPass.msgAt
  rw [shapeCast_a_1a_apply, shapeCast_a_a1_apply]
  have el : ∀ k : Fin 32, lidx_main_v10 (ix2 e j) k = ix2 e k := fun k =>
    funext fun a => by match a with | ⟨0, _⟩ => rfl | ⟨1, _⟩ => rfl
  have er : ∀ k : Fin 32, ridx_main_v10 (ix2 e j) k = ix2 k j := fun k =>
    funext fun a => by match a with | ⟨0, _⟩ => rfl | ⟨1, _⟩ => rfl
  have eb : idx_main_v11 (idx_main_v12 (ix2 e j)) = ix1 j :=
    funext fun a => by match a with | ⟨0, _⟩ => rfl
  have ec : idx_main_v14 (idx_main_v15 (ix2 e j)) = ix1 e :=
    funext fun a => by match a with | ⟨0, _⟩ => rfl
  simp only [el, er, eb, ec]
  rfl

/-- The row of node features and aggregated messages against the whole combining matrix, plus the bias, is the layer's
    result function. -/
theorem out_eq (hb : S64.ShapeCasts S1x64) :
    Cert.MsgPass.out x1 (val_main_v34 (F := Ideal) x0 x2 x3 x4 x5 x6 x7 x8) x9 (shapeCast S1x64 x10 hb)
      = val_main_v39 (F := Ideal) x0 x1 x2 x3 x4 x5 x6 x7 x8 x9 x10 := by
  funext i
  obtain ⟨n, j, rfl⟩ : ∃ (n : Fin 50000) (j : Fin 64), i = ix2 n j := ⟨i 0, i 1, eq_ix2 i⟩
  rw [Cert.MsgPass.out_apply, val_main_v39_apply, val_main_v36_apply, val_main_v38_apply, val_main_v37_apply]
  unfold Cert.MsgPass.outAt
  rw [shapeCast_a_1a_apply, Cert.MsgPass.sum_halves]
  have eb : idx_main_v37 (idx_main_v38 (ix2 n j)) = ix1 j :=
    funext fun a => by match a with | ⟨0, _⟩ => rfl
  have er : ∀ k : Fin 128, ridx_main_v36 (ix2 n j) k = ix2 k j := fun k =>
    funext fun a => by match a with | ⟨0, _⟩ => rfl | ⟨1, _⟩ => rfl
  have e1 : ∀ k : Fin 64, val_main_v35 (F := Ideal) x0 x1 x2 x3 x4 x5 x6 x7 x8 (lidx_main_v36 (ix2 n j) (Fin.castAdd 64 k))
      = x1 (ix2 n k) := fun k => by
    unfold val_main_v35
    refine concatenate_pair_apply_left (t := S50000x128) (s₁ := S50000x64) (s₂ := S50000x64) 1 x1 _ concatenates_S50000x64_S50000x64_S50000x128_d1 _ rfl (ix2 n k) ?_
    intro b
    match b with
    | ⟨0, _⟩ => rfl
    | ⟨1, _⟩ => rfl
  have e2 : ∀ k : Fin 64, val_main_v35 (F := Ideal) x0 x1 x2 x3 x4 x5 x6 x7 x8 (lidx_main_v36 (ix2 n j) (Fin.natAdd 64 k))
      = val_main_v34 (F := Ideal) x0 x2 x3 x4 x5 x6 x7 x8 (ix2 n k) := fun k => by
    unfold val_main_v35
    refine concatenate_pair_apply_right (t := S50000x128) (s₁ := S50000x64) (s₂ := S50000x64) 1 x1 _ concatenates_S50000x64_S50000x64_S50000x128_d1 _ rfl rfl (ix2 n k) ?_ ?_
    · intro b hb'
      match b with
      | ⟨0, _⟩ => rfl
      | ⟨1, _⟩ => exact absurd rfl hb'
    · show k.val + 64 = 64 + k.val
      omega
  simp only [e1, e2, er, eb]
  rfl

/-- The reference's scatter of its messages, with the messages given as the message function. -/
theorem agg_eq (hb : S64.ShapeCasts S1x64) (hc : S1600000.ShapeCasts S1600000x1) :
    Host.scatterAdd scatter_S50000x64_S1600000x1_S1600000x64_1_0_0_1
        (broadcastInDim S50000x64 ![] bcast_S_S50000x64 (constant (F := Ideal) S_ .f32 0x00000000#32))
        (broadcastInDim S1600000x1 ![0] bcast_S1600000_S1600000x1_0 x3)
        (Cert.MsgPass.msg (val_main_v30 (F := Ideal) x0 x2 x6) x5 x7 (shapeCast S1x64 x8 hb)
          (shapeCast S1600000x1 (val_main_v9 (F := Ideal) x4) hc))
      = val_main_v34 (F := Ideal) x0 x2 x3 x4 x5 x6 x7 x8 := by
  rw [msg_eq]
  rfl

end Cert.ReferenceIdeal.RefValue

end
-- ==== Proof.KernelValue.lean ====
/-
  The idealized kernel's result is the reference's last stage of the launch arrays.

  The result buffer ends at the layer's result function of the node features, the scattered messages, the combining
  matrix and the bias row; the scattered messages are the reference's scatter stage because the messages are the
  reference's message stage, and the layer's result function of them is the reference's last stage (the contraction
  over 128 coordinates cut into its two halves).
-/
import proofs.«134730_j79508434583953_1_alg».proof.Proof.HostValue
import proofs.«134730_j79508434583953_1_alg».proof.Proof.RefValue

noncomputable section

namespace Cert.KernelIdeal.KernelValue

open Cert.KernelIdeal Cert.KernelIdeal.Gen Idealize.ShloMosaic Idealize.ShloMosaic.TcCoe Idealize.SL.Sem
open Cert.KernelIdeal.HostValue

variable (m : (ℓ : Loc nD τ sig) → Buf (Elt Ideal) ℓ) (ρ : Dev nD → PrngReg)

theorem result (c : Dev nD) : W6 m ρ c (Proc.devRef .tc main_v31)
    = Cert.ReferenceIdeal.Read.val_main_v39 (F := Ideal) (x0 m c) (x1 m c) (x2 m c) (x3 m c) (x4 m c) (x5 m c) (x6 m c)
        (x7 m c) (x8 m c) (x9 m c) (x10 m c) :=
  (result_eq m ρ c).trans
    ((congrArg (fun a => Cert.MsgPass.out (x1 m c) a (x9 m c) (shapeCast S1x64 (x10 m c) shapeCasts_S64_S1x64))
        (Cert.ReferenceIdeal.RefValue.agg_eq (x0 m c) (x2 m c) (x3 m c) (x4 m c) (x5 m c) (x6 m c) (x7 m c) (x8 m c)
          shapeCasts_S64_S1x64 shapeCasts_S1600000_S1600000x1)).trans
      (Cert.ReferenceIdeal.RefValue.out_eq (x0 m c) (x1 m c) (x2 m c) (x3 m c) (x4 m c) (x5 m c) (x6 m c) (x7 m c) (x8 m c)
        (x9 m c) (x10 m c) shapeCasts_S64_S1x64))

end Cert.KernelIdeal.KernelValue

end
-- ==== Proof.lean ====
/-
  The certificate of the neighbour-embedding layer: a message-passing layer over 50 000 nodes and 1 600 000 edges.

  Both programs gather the embedding row of every edge's sender, weight every edge by the cosine cutoff of its length,
  form the message  x_j(e, ·) · ((F(e, ·) · P + b) · C(e))  of every edge, add the messages of the edges arriving at a
  node into that node's row, and return  [h | a] · K + β  for the node features h and the aggregated messages a.

  The kernel computes the messages in one pipelined region over 100 blocks of 16000 edges (the product F · P as a
  matrix product of operands narrowed to bf16 into a zero accumulator) and the result in a second pipelined region
  over 5 blocks of 10000 nodes as  h · K[0..63] + a · K[64..127] + β;  the gathers, the cutoff weights and the
  scatter by addition are host operations, the same ones the reference applies.  At the ideal values a change of float
  format is the identity and a matrix product is the plain sum over the contracted coordinate, so the messages of the
  two programs are the same function of the arguments entry by entry; the scatters are then the same operation on the
  same operands; and the reference's contraction over the 128 coordinates of the row [h(n, ·) | a(n, ·)] is the sum of
  its two halves, which is what the kernel adds.  No step needs finiteness: only that + on the extended reals is
  commutative and associative.

  The three frames: the two kernel programs' whole frames and the reference's run with its result dropped.  The
  idealization rewrote nothing, so its conjunct is trivial.
-/
import proofs.«134730_j79508434583953_1_alg».proof.Defs
import proofs.«134730_j79508434583953_1_alg».proof.Proof.Gen.Kernel
import proofs.«134730_j79508434583953_1_alg».proof.Proof.Gen.Kernel.Skeleton
import proofs.«134730_j79508434583953_1_alg».proof.Proof.Gen.Kernel.Launch
import proofs.«134730_j79508434583953_1_alg».proof.Proof.Gen.Kernel.Points
import proofs.«134730_j79508434583953_1_alg».proof.Proof.Gen.Kernel.Frame
import proofs.«134730_j79508434583953_1_alg».proof.Proof.Gen.KernelIdeal
import proofs.«134730_j79508434583953_1_alg».proof.Proof.Gen.KernelIdeal.Skeleton
import proofs.«134730_j79508434583953_1_alg».proof.Proof.Gen.KernelIdeal.Launch
import proofs.«134730_j79508434583953_1_alg».proof.Proof.Gen.KernelIdeal.Points
import proofs.«134730_j79508434583953_1_alg».proof.Proof.Gen.KernelIdeal.Frame
import proofs.«134730_j79508434583953_1_alg».proof.Proof.Gen.ReferenceIdeal
import proofs.«134730_j79508434583953_1_alg».proof.Proof.Gen.ReferenceIdeal.Run
import proofs.«134730_j79508434583953_1_alg».proof.Proof.Gen.ReferenceIdeal.Read
import proofs.«134730_j79508434583953_1_alg».proof.Proof.Gen.Pre_finite_inputs
import proofs.«134730_j79508434583953_1_alg».proof.Proof.ResultRun
import proofs.«134730_j79508434583953_1_alg».proof.Proof.KernelValue
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the reference's last stage of the
    arguments in their result buffers. -/
theorem algebraic : Cert.algebraic_KernelIdeal_ReferenceIdeal := by
  intro m ρ m' ρ' _ hagree
  refine ⟨fun c => Cert.ReferenceIdeal.Read.val_main_v39 (F := Ideal)
      (Cert.KernelIdeal.HostValue.x0 m c) (Cert.KernelIdeal.HostValue.x1 m c) (Cert.KernelIdeal.HostValue.x2 m c)
      (Cert.KernelIdeal.HostValue.x3 m c) (Cert.KernelIdeal.HostValue.x4 m c) (Cert.KernelIdeal.HostValue.x5 m c)
      (Cert.KernelIdeal.HostValue.x6 m c) (Cert.KernelIdeal.HostValue.x7 m c) (Cert.KernelIdeal.HostValue.x8 m c)
      (Cert.KernelIdeal.HostValue.x9 m c) (Cert.KernelIdeal.HostValue.x10 m c), ?_, ?_⟩
  · exact (θ_run Cert.KernelIdeal.defs _ _).mono
      (fun r h c => ⟨(h c).1.trans (Cert.KernelIdeal.KernelValue.result m ρ c), (h c).2⟩)
      (Cert.KernelIdeal.ResultRun.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v39_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
